-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v38)) (v1 : (c : Dev Cert.KernelIdeal.nD) → Buf (Elt Ideal) ((c.tc : Thread Cert.KernelIdeal.nD Cert.KernelIdeal.τ).loc Cert.KernelIdeal.main_arg1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_arg1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000x16 : Shape := ⟨2, ![1600000, 16]⟩
abbrev S2x1600000 : Shape := ⟨2, ![2, 1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000x16 : S_.BroadcastsInDim S1600000x16 (![] : Fin 0 → Fin S1600000x16.rank)
  reducesTo_S1600000x16_S_d0_1 : S1600000x16.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128x128 .f32) (main_arg6 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S100000x128 .f32) (main_arg1 : FVec F S1600000x16 .f32) (main_arg2 : IVec S2x1600000 32) (main_arg3 : FVec F S128x128 .f32) (main_arg4 : FVec F S128 .f32) (main_arg5 : FVec F S128x128 .f32) (main_arg6 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000x16 .f32 := Host.absf main_arg1
  let main_cst_0 : FVec F S_ .f32 := constant S_ .f32 0x7F800000#32
  let main_v5 : FVec F S1600000x16 .f32 := broadcastInDim S1600000x16 ![] bcast_S_S1600000x16 main_cst_0
  let main_v6 : IVec S1600000x16 1 := cmpf .olt main_v4 main_v5
  let main_c_1 : IVec S_ 1 := constantI S_ 1 1#1
  let main_v7 : IVec S_ 1 := (fun x v => Host.reduce IntOp.andi x v reducesTo_S1600000x16_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_v13 main_v16
-- ==== Kernel.lean ====
abbrev S100000x128 : Shape := ⟨2, ![100000, 128]⟩
abbrev S1600000x16 : Shape := ⟨2, ![1600000, 16]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S2000x128 : Shape := ⟨2, ![2000, 128]⟩
abbrev S1x128 : Shape := ⟨2, ![1, 128]⟩

abbrev nBuf : Space → Nat
  | .hbm => 56
  | .vmem => 8
  | .smem => 0
  | _ => 0

abbrev bufTy : (tb : Table) → Fin (tcTables nBuf tb) → BufTy
  | .hbm, ⟨0, _⟩ => ⟨S100000x128, .f32⟩
  | .hbm, ⟨1, _⟩ => ⟨S1600000x16, .f32⟩
  | .hbm, ⟨2, _⟩ => ⟨S2x1600000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S1x1600000, .i32⟩
  | .hbm, ⟨8, _⟩ => ⟨S1600000, .i32⟩
  | .hbm, ⟨9, _⟩ => ⟨S1x1600000, .i32⟩
  | .hbm, ⟨10, _⟩ => ⟨S1600000, .i32⟩
  | .hbm, ⟨11, _⟩ => ⟨S_, .f32⟩
  | .hbm, ⟨12, _⟩ => ⟨S1600000, .f32⟩
  | .hbm, ⟨13, _⟩ => ⟨S_, .f32⟩
  | .hbm, ⟨14, _⟩ => ⟨S100000, .f32⟩
  | .hbm, ⟨15, _⟩ => ⟨S1600000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .i1⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1600000, .i32⟩
  | .hbm, ⟨29, _⟩ => ⟨S1600000, .i1⟩
  | .hbm, ⟨30, _⟩ => ⟨S_, .i32⟩
  | .hbm, ⟨31, _⟩ => ⟨S1600000, .i32⟩
  | .hbm, ⟨32, _⟩ => ⟨S1600000, .i32⟩
  | .hbm, ⟨33, _⟩ => ⟨S1600000, .i32⟩
  | .hbm, ⟨34, _⟩ => ⟨S1600000x1, .i32⟩
  | .hbm, ⟨35, _⟩ => ⟨S1600000x128, .f32⟩
  | .hbm, ⟨36, _⟩ => ⟨S_, .i32⟩
  | .hbm, ⟨37, _⟩ => ⟨S1600000, .i32⟩
  | .hbm, ⟨38, _⟩ => ⟨S1600000, .i1⟩
  | .hbm, ⟨39, _⟩ => ⟨S_, .i32⟩
  | .hbm, ⟨40, _⟩ => ⟨S1600000, .i32⟩
  | .hbm, ⟨41, _⟩ => ⟨S1600000, .i32⟩
  | .hbm, ⟨42, _⟩ => ⟨S1600000, .i32⟩
  | .hbm, ⟨43, _⟩ => ⟨S1600000x1, .i32⟩
  | .hbm, ⟨44, _⟩ => ⟨S1600000, .f32⟩
  | .hbm, ⟨45, _⟩ => ⟨S1600000x1, .f32⟩
  | .hbm, ⟨46, _⟩ => ⟨S1600000x128, .f32⟩
  | .hbm, ⟨47, _⟩ => ⟨S1600000x128, .f32⟩
  | .hbm, ⟨48, _⟩ => ⟨S_, .f32⟩
  | .hbm, ⟨49, _⟩ => ⟨S100000x128, .f32⟩
  | .hbm, ⟨50, _⟩ => ⟨S1600000x1, .i32⟩
  | .hbm, ⟨51, _⟩ => ⟨S100000x128, .f32⟩
  | .hbm, ⟨52, _⟩ => ⟨S100000x1, .f32⟩
  | .hbm, ⟨53, _⟩ => ⟨S100000x128, .f32⟩
  | .hbm, ⟨54, _⟩ => ⟨S100000x128, .f32⟩
  | .hbm, ⟨55, _⟩ => ⟨S100000x128, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S128, .f32⟩
  | .local _ .vmem, ⟨4, _⟩ => ⟨S128x128, .f32⟩
  | .local _ .vmem, ⟨5, _⟩ => ⟨S128, .f32⟩
  | .local _ .vmem, ⟨6, _⟩ => ⟨S2000x128, .f32⟩
  | .local _ .vmem, ⟨7, _⟩ => ⟨S2000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_3 : Ref sig .tc := ⟨.hbm, 24, rfl⟩
abbrev main_v13 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_4 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_5 : Ref sig .tc := ⟨.hbm, 36, rfl⟩
abbrev main_v22 : Ref sig .tc := ⟨.hbm, 37, rfl⟩
abbrev main_v23 : Ref sig .tc := ⟨.hbm, 38, rfl⟩
abbrev main_c_6 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_7 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  gather_S100000_S1600000x1_S1600000_n_0_n_n_0_1_1_wf : GatherDims.WF S100000 S1600000x1 S1600000 [] [0] [] [0] [] 1 ![1]
  scatter_S100000x128_S1600000x1_S1600000x128_1_0_0_1_wf : ScatterDims.WF S100000x128 S1600000x1 S1600000x128 [1] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S100000x128.size a
  hwx0_5 : ∀ i : grid0.Coords, EltTy.bits .f32 = 32 ∨ (Rect.block (s := S100000x128) S2000x128.size (cc0_transform_5 i) (hinb0_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_v37) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v38) S2000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S100000x128 : Shape := ⟨2, ![100000, 128]⟩
abbrev S1600000x16 : Shape := ⟨2, ![1600000, 16]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩

abbrev nBuf : Space → Nat
  | .hbm => 66
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000x16, .f32⟩
  | .hbm, ⟨2, _⟩ => ⟨S2x1600000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S1x1600000, .i32⟩
  | .hbm, ⟨8, _⟩ => ⟨S1600000, .i32⟩
  | .hbm, ⟨9, _⟩ => ⟨S1x1600000, .i32⟩
  | .hbm, ⟨10, _⟩ => ⟨S1600000, .i32⟩
  | .hbm, ⟨11, _⟩ => ⟨S_, .f32⟩
  | .hbm, ⟨12, _⟩ => ⟨S1600000, .f32⟩
  | .hbm, ⟨13, _⟩ => ⟨S_, .f32⟩
  | .hbm, ⟨14, _⟩ => ⟨S100000, .f32⟩
  | .hbm, ⟨15, _⟩ => ⟨S1600000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .i1⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1600000, .i32⟩
  | .hbm, ⟨29, _⟩ => ⟨S1600000, .i1⟩
  | .hbm, ⟨30, _⟩ => ⟨S_, .i32⟩
  | .hbm, ⟨31, _⟩ => ⟨S1600000, .i32⟩
  | .hbm, ⟨32, _⟩ => ⟨S1600000, .i32⟩
  | .hbm, ⟨33, _⟩ => ⟨S1600000, .i32⟩
  | .hbm, ⟨34, _⟩ => ⟨S1600000x1, .i32⟩
  | .hbm, ⟨35, _⟩ => ⟨S1600000x128, .f32⟩
  | .hbm, ⟨36, _⟩ => ⟨S_, .i32⟩
  | .hbm, ⟨37, _⟩ => ⟨S1600000, .i32⟩
  | .hbm, ⟨38, _⟩ => ⟨S1600000, .i1⟩
  | .hbm, ⟨39, _⟩ => ⟨S_, .i32⟩
  | .hbm, ⟨40, _⟩ => ⟨S1600000, .i32⟩
  | .hbm, ⟨41, _⟩ => ⟨S1600000, .i32⟩
  | .hbm, ⟨42, _⟩ => ⟨S1600000, .i32⟩
  | .hbm, ⟨43, _⟩ => ⟨S1600000x1, .i32⟩
  | .hbm, ⟨44, _⟩ => ⟨S1600000, .f32⟩
  | .hbm, ⟨45, _⟩ => ⟨S1600000x1, .f32⟩
  | .hbm, ⟨46, _⟩ => ⟨S1600000x128, .f32⟩
  | .hbm, ⟨47, _⟩ => ⟨S1600000x128, .f32⟩
  | .hbm, ⟨48, _⟩ => ⟨S_, .f32⟩
  | .hbm, ⟨49, _⟩ => ⟨S100000x128, .f32⟩
  | .hbm, ⟨50, _⟩ => ⟨S1600000x1, .i32⟩
  | .hbm, ⟨51, _⟩ => ⟨S100000x128, .f32⟩
  | .hbm, ⟨52, _⟩ => ⟨S100000x1, .f32⟩
  | .hbm, ⟨53, _⟩ => ⟨S100000x128, .f32⟩
  | .hbm, ⟨54, _⟩ => ⟨S100000x128, .f32⟩
  | .hbm, ⟨55, _⟩ => ⟨S100000x128, .f32⟩
  | .hbm, ⟨56, _⟩ => ⟨S1x128, .f32⟩
  | .hbm, ⟨57, _⟩ => ⟨S100000x128, .f32⟩
  | .hbm, ⟨58, _⟩ => ⟨S100000x128, .f32⟩
  | .hbm, ⟨59, _⟩ => ⟨S_, .f32⟩
  | .hbm, ⟨60, _⟩ => ⟨S100000x128, .f32⟩
  | .hbm, ⟨61, _⟩ => ⟨S100000x128, .f32⟩
  | .hbm, ⟨62, _⟩ => ⟨S100000x128, .f32⟩
  | .hbm, ⟨63, _⟩ => ⟨S1x128, .f32⟩
  | .hbm, ⟨64, _⟩ => ⟨S100000x128, .f32⟩
  | .hbm, ⟨65, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_3 : Ref sig .tc := ⟨.hbm, 24, rfl⟩
abbrev main_v13 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_4 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_5 : Ref sig .tc := ⟨.hbm, 36, rfl⟩
abbrev main_v22 : Ref sig .tc := ⟨.hbm, 37, rfl⟩
abbrev main_v23 : Ref sig .tc := ⟨.hbm, 38, rfl⟩
abbrev main_c_6 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_7 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_call1_cst : Ref sig .tc := ⟨.hbm, 59, rfl⟩
abbrev main_call1_v0 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  gather_S100000_S1600000x1_S1600000_n_0_n_n_0_1_1_wf : GatherDims.WF S100000 S1600000x1 S1600000 [] [0] [] [0] [] 1 ![1]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.MlpSpec.lean ====
/-
  The function both programs compute from the aggregated node features: a two-layer perceptron, row by row.

  For an array `a` of 100000 rows of 128 features, weights `w1`, `w2` (128 × 128) and biases `b1`, `b2` (128):

      hidden r k = max (Σ_l a[r, l] · w1[l, k] + b1[k]) 0
      mlp    r j = Σ_k hidden r k · w2[k, j] + b2[j]

  over the extended reals. The zero of the rectifier is kept as the value of the all-zero f32 word: both programs
  spell it by that word, so it is never evaluated.
-/
import Idealize.ShloMosaic.PureOps.Ideal
import Idealize.ShloMosaic.Lib.ValueIdx

noncomputable section

open scoped BigOperators

namespace Cert.Mlp

open Idealize.ShloMosaic Idealize.ShloMosaic.ValueIdx

/-- The rectifier's threshold: the value of the all-zero f32 word. -/
abbrev zero32 : EReal := Ideal.ofBits .f32 0x00000000#32

/-- One affine row-by-matrix entry: Σ_l x[l] · w[l, k] + b[k], for a row given as a function of the feature. -/
def affine (x : Fin 128 → EReal) (w : (⟨2, ![128, 128]⟩ : Shape).Idx → EReal) (b : (⟨1, ![128]⟩ : Shape).Idx → EReal)
    (k : Fin 128) : EReal :=
  (∑ l : Fin 128, x l * w (ix2 l k)) + b (ix1 k)

/-- The two layers applied to ONE row `x` of 128 features: entry `j` of the output row. -/
def row (x : Fin 128 → EReal) (w1 : (⟨2, ![128, 128]⟩ : Shape).Idx → EReal) (b1 : (⟨1, ![128]⟩ : Shape).Idx → EReal)
    (w2 : (⟨2, ![128, 128]⟩ : Shape).Idx → EReal) (b2 : (⟨1, ![128]⟩ : Shape).Idx → EReal) (j : Fin 128) : EReal :=
  affine (fun k => max (affine x w1 b1 k) zero32) w2 b2 j

/-- The perceptron of a whole array of `n` rows: entry (r, j) is `row` of row r at j. -/
def mlp {n : Nat} (a : (⟨2, ![n, 128]⟩ : Shape).Idx → EReal) (w1 : (⟨2, ![128, 128]⟩ : Shape).Idx → EReal)
    (b1 : (⟨1, ![128]⟩ : Shape).Idx → EReal) (w2 : (⟨2, ![128, 128]⟩ : Shape).Idx → EReal)
    (b2 : (⟨1, ![128]⟩ : Shape).Idx → EReal) : (⟨2, ![n, 128]⟩ : Shape).Idx → EReal :=
  fun i => row (fun l => a (ix2 (i 0) l)) w1 b1 w2 b2 (i 1)

/-- The perceptron at an index given by its coordinates. -/
theorem mlp_ix2 {n : Nat} (a : (⟨2, ![n, 128]⟩ : Shape).Idx → EReal) (w1 : (⟨2, ![128, 128]⟩ : Shape).Idx → EReal)
    (b1 : (⟨1, ![128]⟩ : Shape).Idx → EReal) (w2 : (⟨2, ![128, 128]⟩ : Shape).Idx → EReal)
    (b2 : (⟨1, ![128]⟩ : Shape).Idx → EReal) (r : Fin n) (j : Fin 128) :
    mlp a w1 b1 w2 b2 (ix2 r j) = row (fun l => a (ix2 r l)) w1 b1 w2 b2 j := rfl

/-- A row of the perceptron depends on the array only through that row: two arrays (of any heights) that agree
    on one row each give the same output row. -/
theorem row_congr (x y : Fin 128 → EReal) (h : ∀ l, x l = y l) (w1 : (⟨2, ![128, 128]⟩ : Shape).Idx → EReal)
    (b1 : (⟨1, ![128]⟩ : Shape).Idx → EReal) (w2 : (⟨2, ![128, 128]⟩ : Shape).Idx → EReal)
    (b2 : (⟨1, ![128]⟩ : Shape).Idx → EReal) (j : Fin 128) :
    row x w1 b1 w2 b2 j = row y w1 b1 w2 b2 j := by
  rw [show x = y from funext h]

/-- The same, in every argument: rows that agree entry by entry and equal weights and biases give equal output rows. -/
theorem row_congr_all {x y : Fin 128 → EReal} {w1 w1' : (⟨2, ![128, 128]⟩ : Shape).Idx → EReal}
    {b1 b1' : (⟨1, ![128]⟩ : Shape).Idx → EReal} {w2 w2' : (⟨2, ![128, 128]⟩ : Shape).Idx → EReal}
    {b2 b2' : (⟨1, ![128]⟩ : Shape).Idx → EReal} (hx : ∀ l, x l = y l) (h1 : w1 = w1') (h2 : b1 = b1') (h3 : w2 = w2')
    (h4 : b2 = b2') (j : Fin 128) : row x w1 b1 w2 b2 j = row y w1' b1' w2' b2' j := by
  subst h1 h2 h3 h4
  rw [show x = y from funext hx]

/-- The perceptron of equal arrays, weights and biases is the same array. -/
theorem mlp_congr {n : Nat} {a a' : (⟨2, ![n, 128]⟩ : Shape).Idx → EReal} {w1 w1' : (⟨2, ![128, 128]⟩ : Shape).Idx → EReal}
    {b1 b1' : (⟨1, ![128]⟩ : Shape).Idx → EReal} {w2 w2' : (⟨2, ![128, 128]⟩ : Shape).Idx → EReal}
    {b2 b2' : (⟨1, ![128]⟩ : Shape).Idx → EReal} (h0 : a = a') (h1 : w1 = w1') (h2 : b1 = b1') (h3 : w2 = w2')
    (h4 : b2 = b2') : mlp a w1 b1 w2 b2 = mlp a' w1' b1' w2' b2' := by
  subst h0 h1 h2 h3 h4; rfl

end Cert.Mlp

end
-- ==== Proof.KernelBlock.lean ====
/-
  One block of the kernel's output, entry by entry.

  At a grid point the body loads a [2000, 128] block `x0` of the aggregated features, the two weight matrices
  `x1`, `x3` and the two biases `x2`, `x4`, and stores ONE value: the second affine layer of the rectified first.
  Over the extended reals the roundings to bf16 are the identity and a matrix product into a zero accumulator is
  the plain sum over the contracted feature, so entry (p, q) of the stored block is the two-layer perceptron of
  ROW p of the block, at output feature q (`Cert.Mlp.row`).
-/
import proofs.«129448_j6665789243397_1_alg».proof.Proof.Gen.KernelIdeal.Skeleton
import proofs.«129448_j6665789243397_1_alg».proof.Proof.MlpSpec
import Idealize.ShloMosaic.Lib.Pipeline.Value
import Idealize.ShloMosaic.Lib.ValueIdx
import Idealize.ShloMosaic.PureOps.Ideal.Laws

noncomputable section

open scoped BigOperators

namespace Cert.KernelIdeal.Block

open Cert.KernelIdeal Cert.KernelIdeal.Gen Idealize.ShloMosaic Idealize.ShloMosaic.ValueIdx

/-! ## The product's operand indices: output (r, c) and contracted feature k read (r, k) and (k, c) -/

theorem lhs_axis0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem lhs_axis1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
theorem rhs_axis0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
theorem rhs_axis1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- A [2000, 128] × [128, 128] product into the zero accumulator, at (p, q): the sum over the 128 contracted
    features of left (p, k) times right (k, q). -/
theorem matmul_zero_apply {φ₁ φ₂ : FTy} (l : FVec Ideal S2000x128 φ₁) (r : FVec Ideal S128x128 φ₂) (p : Fin 2000) (q : Fin 128) :
    matmul dot_S2000x128_S128x128_S2000x128_1_0_0_1_n_n none l r (constant (F := Ideal) S2000x128 .f32 0x00000000#32) (ix2 p q)
      = ∑ k : Fin 128, l (ix2 p k) * r (ix2 k q) := by
  simp only [matmul]
  rw [Ideal.matmul_constant_zero_apply, ← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p q) ((contrEquiv1 dot_S2000x128_S128x128_S2000x128_1_0_0_1_n_n 128 rfl rfl).symm k) = ix2 p k := funext fun a => Fin.ext (by
    match a with
    | ⟨0, _⟩ => exact lhs_axis0 _ _
    | ⟨1, _⟩ => exact (lhs_axis1 _ _).trans hk)
  have er : dot_S2000x128_S128x128_S2000x128_1_0_0_1_n_n.rhsIdx (ix2 p q) ((contrEquiv1 dot_S2000x128_S128x128_S2000x128_1_0_0_1_n_n 128 rfl rfl).symm k) = ix2 k q := funext fun a => Fin.ext (by
    match a with
    | ⟨0, _⟩ => exact (rhs_axis0 _ _).trans hk
    | ⟨1, _⟩ => exact rhs_axis1 _ _)
  rw [el, er]

/-- A bias vector laid along the rows of a [2000, 128] block reads its entry at the column. -/
theorem bias_apply {α : Type} (b : S128.Idx → α) (p : Fin 2000) (q : Fin 128) :
    broadcastTo S2000x128 (shapeCast S1x128 b shapeCasts_S128_S1x128) broadcasts_S1x128_S2000x128 (ix2 p q) = b (ix1 q) := by
  rw [broadcastTo_apply _ broadcasts_S1x128_S2000x128 (ix2 p q) (ix2 (0 : Fin 1) q) (fun a => by
    match a with
    | ⟨0, _⟩ => show (0 : Nat) = if (1 : Nat) = 1 then 0 else _; rw [if_pos rfl]
    | ⟨1, _⟩ => show q.val = if (128 : Nat) = 1 then 0 else q.val; rw [if_neg (by decide)])]
  exact shapeCast_apply b shapeCasts_S128_S1x128 (ix2 (0 : Fin 1) q) (ix1 q)
    (by rewrite [Shape.rowMajor_val_two, Shape.rowMajor_val_one]; show q.val = 0 * 128 + q.val; omega)

/-- THE STORED BLOCK at (p, q): the perceptron of row p of the loaded block, at output feature q. -/
theorem pay_apply (x0 : Vec Ideal S2000x128 .f32) (x1 : Vec Ideal S128x128 .f32) (x2 : Vec Ideal S128 .f32)
    (x3 : Vec Ideal S128x128 .f32) (x4 : Vec Ideal S128 .f32) (p : Fin 2000) (q : Fin 128) :
    k0_pay1 (F := Ideal) x0 x1 x2 x3 x4 (ix2 p q) = Cert.Mlp.row (fun l => x0 (ix2 p l)) x1 x2 x3 x4 q := by
  unfold k0_pay1
  rw [addf_apply, matmul_zero_apply, bias_apply]
  unfold Cert.Mlp.row Cert.Mlp.affine
  refine congrArg (· + x4 (ix1 q)) (Finset.sum_congr rfl fun k _ => ?_)
  refine congrArg (· * x3 (ix2 k q)) ?_
  rw [truncf_apply, maximumf_apply, addf_apply, matmul_zero_apply, bias_apply]
  refine congrArg₂ max (congrArg (· + x2 (ix1 k)) (Finset.sum_congr rfl fun l _ => ?_)) rfl
  rw [truncf_apply, truncf_apply, shapeCast_self]

end Cert.KernelIdeal.Block

end
-- ==== Proof.KernelArray.lean ====
/-
  From the kernel's blocks to its whole output array.

  The grid has 50 points; point t reads rows 2000·t … 2000·t + 1999 of the aggregated features (all 128 columns),
  the two weight matrices and the two biases whole, and writes back rows 2000·t … 2000·t + 1999 of the output.
  A row of the stored block is the perceptron of the same row of the loaded block, so what point t writes back
  is block t of ONE function of the arrays the region finds: the perceptron of the aggregated features, row by
  row. The 50 blocks cover the 100000 rows (row r lies in block r / 2000), so that function is the output array.

  The block identity is proved for ARBITRARY contents of the five input arrays (`block_eq`): it is a fact about
  the windows' rectangles and the body's arithmetic only, and what the arrays hold when the region is entered —
  for the features, the whole aggregation — is never looked into.
-/
import proofs.«129448_j6665789243397_1_alg».proof.Proof.Gen.KernelIdeal.Value
import proofs.«129448_j6665789243397_1_alg».proof.Proof.KernelBlock
import Idealize.ShloMosaic.Lib.Pipeline.Value

noncomputable section

namespace Cert.KernelIdeal.Whole

open Cert.KernelIdeal Cert.KernelIdeal.Gen Idealize.ShloMosaic Idealize.ShloMosaic.TcCoe Idealize.SL.Sem
open Idealize.ShloMosaic.ValueIdx
open Idealize.ShloMosaic.Pipeline (Dat)

theorem hz2 : (![0, 0] : Fin 2 → Nat) = fun _ => 0 := funext fun a => by fin_cases a <;> rfl
theorem hz1 : (![0] : Fin 1 → Nat) = fun _ => 0 := funext fun a => by fin_cases a <;> rfl

/-- The block index of every window at every point: the features' and the output's windows are at block (t, 0),
    the weights' and biases' at block 0. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

/-! ## Each input window's block, read off ANY contents of its array -/

/-- The first weight matrix's window is the whole matrix at every point. -/
theorem read_w1 (A : S128x128.Idx → EReal) (t : Fin cfg0.N) : ((cfg0.win 1).blk t).view.read (Elt Ideal) A = A := by
  obtain ⟨-, -, e0, e1, -⟩ := idx_facts t
  funext y
  show A (((cfg0.win 1).blk t).view.emb y) = A y
  refine congrArg A (funext fun a => Fin.ext ?_)
  match a with
  | ⟨0, _⟩ => show win0_1.index t (0 : Fin 2) * 128 + 1 * (y 0).val = (y 0).val; omega
  | ⟨1, _⟩ => show win0_1.index t (1 : Fin 2) * 128 + 1 * (y 1).val = (y 1).val; omega

/-- The first bias's window is the whole vector at every point. -/
theorem read_b1 (A : S128.Idx → EReal) (t : Fin cfg0.N) : ((cfg0.win 2).blk t).view.read (Elt Ideal) A = A := by
  obtain ⟨-, -, -, -, e0, -⟩ := idx_facts t
  funext y
  show A (((cfg0.win 2).blk t).view.emb y) = A y
  refine congrArg A (funext fun a => Fin.ext ?_)
  match a with
  | ⟨0, _⟩ => show win0_2.index t (0 : Fin 1) * 128 + 1 * (y 0).val = (y 0).val; omega

/-- The second weight matrix's window is the whole matrix at every point. -/
theorem read_w2 (A : S128x128.Idx → EReal) (t : Fin cfg0.N) : ((cfg0.win 3).blk t).view.read (Elt Ideal) A = A := by
  obtain ⟨-, -, -, -, -, e0, e1, -⟩ := idx_facts t
  funext y
  show A (((cfg0.win 3).blk t).view.emb y) = A y
  refine congrArg A (funext fun a => Fin.ext ?_)
  match a with
  | ⟨0, _⟩ => show win0_3.index t (0 : Fin 2) * 128 + 1 * (y 0).val = (y 0).val; omega
  | ⟨1, _⟩ => show win0_3.index t (1 : Fin 2) * 128 + 1 * (y 1).val = (y 1).val; omega

/-- The second bias's window is the whole vector at every point. -/
theorem read_b2 (A : S128.Idx → EReal) (t : Fin cfg0.N) : ((cfg0.win 4).blk t).view.read (Elt Ideal) A = A := by
  obtain ⟨-, -, -, -, -, -, -, e0, -⟩ := idx_facts t
  funext y
  show A (((cfg0.win 4).blk t).view.emb y) = A y
  refine congrArg A (funext fun a => Fin.ext ?_)
  match a with
  | ⟨0, _⟩ => show win0_4.index t (0 : Fin 1) * 128 + 1 * (y 0).val = (y 0).val; omega

/-- Row p of the features' window at point t is row 2000·t + p of the features' array. -/
theorem read_rows (A : S100000x128.Idx → EReal) (t : Fin cfg0.N) (p : Fin 2000) (l : Fin 128) (R : Fin 100000)
    (hR : R.val = t.val * 2000 + p.val) :
    ((cfg0.win 0).blk t).view.read (Elt Ideal) A (ix2 p l) = A (ix2 R l) := by
  obtain ⟨e0, e1, -⟩ := idx_facts t
  show A (((cfg0.win 0).blk t).view.emb (ix2 p l)) = A (ix2 R l)
  refine congrArg A (funext fun a => Fin.ext ?_)
  match a with
  | ⟨0, _⟩ => show win0_0.index t (0 : Fin 2) * 2000 + 1 * p.val = R.val; omega
  | ⟨1, _⟩ => show win0_0.index t (1 : Fin 2) * 128 + 1 * l.val = l.val; omega

/-! ## What the body leaves at a point is block t of the perceptron of the arrays -/

/-- For any contents of the five input arrays: the body's result on their blocks at point t, read through the
    output window, is block t of the perceptron of the whole arrays. -/
theorem block_eq (A0 : S100000x128.Idx → EReal) (A1 : S128x128.Idx → EReal) (A2 : S128.Idx → EReal)
    (A3 : S128x128.Idx → EReal) (A4 : S128.Idx → EReal) (t : Fin cfg0.N) :
    (cfg0.win 5).cut (grid0.coords t) (out0_5 (F := Ideal)
        (((cfg0.win 0).blk t).view.read (Elt Ideal) A0) (((cfg0.win 1).blk t).view.read (Elt Ideal) A1)
        (((cfg0.win 2).blk t).view.read (Elt Ideal) A2) (((cfg0.win 3).blk t).view.read (Elt Ideal) A3)
        (((cfg0.win 4).blk t).view.read (Elt Ideal) A4))
      = ((cfg0.win 5).blk t).view.read (Elt Ideal) (Cert.Mlp.mlp (n := 100000) A0 A1 A2 A3 A4) := by
  unfold out0_5
  rw [View.canon_unit_zero hz2]
  simp only [View.ld_unit_zero (S := S2000x128) hz2, View.ld_unit_zero (S := S128x128) hz2, View.ld_unit_zero (S := S128) hz1]
  funext j
  obtain ⟨p, q, rfl⟩ : ∃ (p : Fin 2000) (q : Fin 128), j = ix2 p q := ⟨j 0, j 1, eq_ix2 j⟩
  have ht : t.val < 50 := Nat.lt_of_lt_of_eq t.isLt N_0
  obtain ⟨-, -, -, -, -, -, -, -, e0, e1⟩ := idx_facts t
  have hp : p.val < 2000 := p.isLt
  have hemb : ((cfg0.win 5).blk t).view.emb (ix2 p q) = (ix2 (⟨t.val * 2000 + p.val, by omega⟩ : Fin 100000) q : S100000x128.Idx) :=
    funext fun a => Fin.ext (by
      match a with
      | ⟨0, _⟩ => show win0_5.index t (0 : Fin 2) * 2000 + 1 * p.val = t.val * 2000 + p.val; omega
      | ⟨1, _⟩ => show win0_5.index t (1 : Fin 2) * 128 + 1 * q.val = q.val; omega)
  show k0_pay1 (F := Ideal) (((cfg0.win 0).blk t).view.read (Elt Ideal) A0) (((cfg0.win 1).blk t).view.read (Elt Ideal) A1)
        (((cfg0.win 2).blk t).view.read (Elt Ideal) A2) (((cfg0.win 3).blk t).view.read (Elt Ideal) A3)
        (((cfg0.win 4).blk t).view.read (Elt Ideal) A4) (ix2 p q)
    = Cert.Mlp.mlp (n := 100000) A0 A1 A2 A3 A4 (((cfg0.win 5).blk t).view.emb (ix2 p q))
  rw [hemb, Cert.Mlp.mlp_ix2]
  refine (Cert.KernelIdeal.Block.pay_apply _ _ _ _ _ p q).trans ?_
  exact Cert.Mlp.row_congr_all (fun l => read_rows A0 t p l _ rfl) (read_w1 A1 t) (read_b1 A2 t) (read_w2 A3 t) (read_b2 A4 t) q

/-! ## The array after the run -/

variable (m : (ℓ : Loc nD τ sig) → Buf (Elt Ideal) ℓ) (ρ : Dev nD → PrngReg)

/-- The output array: the perceptron of the five input windows' arrays as the region finds them (window 0's array
    holds the aggregated features, windows 1 to 4's the weights and biases). -/
def result (c : Dev nD) : S100000x128.Idx → EReal :=
  Cert.Mlp.mlp (n := 100000) (V m c (Pipeline.arrRef spec0 0)) (V m c (Pipeline.arrRef spec0 1)) (V m c (Pipeline.arrRef spec0 2))
    (V m c (Pipeline.arrRef spec0 3)) (V m c (Pipeline.arrRef spec0 4))

/-- WHAT POINT t WRITES BACK is block t of `result`. -/
theorem flushed_eq (c : Dev nD) (t : Fin cfg0.N) :
    (dats m 0 c).flushed 5 t = ((cfg0.win 5).blk t).view.read (Elt Ideal) (result m c) :=
  (Cert.KernelIdeal.Value.flushed5 m c t).trans
    (block_eq (V m c (Pipeline.arrRef spec0 0)) (V m c (Pipeline.arrRef spec0 1)) (V m c (Pipeline.arrRef spec0 2))
      (V m c (Pipeline.arrRef spec0 3)) (V m c (Pipeline.arrRef spec0 4)) t)

/-- An index of the output array is in point t's block iff each coordinate is in the block's range on its axis. -/
theorem mem_blk (t : Fin cfg0.N) (i : S100000x128.Idx) :
    i ∈ ((cfg0.win 5).blk t).view.set ↔ ∀ a : Fin 2, win0_5.index t a * S2000x128.size a ≤ (i a).val ∧ (i a).val < win0_5.index t a * S2000x128.size a + S2000x128.size a := by
  show i ∈ ((View.whole main_v38).slice (win0_5.rect t)).set ↔ _
  rw [View.set_slice_whole, Rect.mem_set_unit]
  exact Iff.rfl

/-- Every index of the output array is in some point's block: row r is in block r / 2000. -/
theorem cover (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  have hN : cfg0.N = 50 := N_0
  have hlt : (i 0).val / 2000 < cfg0.N := by rw [hN]; omega
  obtain ⟨-, -, -, -, -, -, -, -, e0, e1⟩ := idx_facts ⟨(i 0).val / 2000, hlt⟩
  refine ⟨⟨(i 0).val / 2000, hlt⟩, flush0_5 _, ?_⟩
  rw [mem_blk]
  intro a
  match a with
  | ⟨0, _⟩ =>
    show win0_5.index ⟨(i 0).val / 2000, hlt⟩ (0 : Fin 2) * 2000 ≤ (i 0).val ∧ (i 0).val < win0_5.index ⟨(i 0).val / 2000, hlt⟩ (0 : Fin 2) * 2000 + 2000
    rw [e0]; show (i 0).val / 2000 * 2000 ≤ (i 0).val ∧ (i 0).val < (i 0).val / 2000 * 2000 + 2000; omega
  | ⟨1, _⟩ =>
    show win0_5.index ⟨(i 0).val / 2000, hlt⟩ (1 : Fin 2) * 128 ≤ (i 1).val ∧ (i 1).val < win0_5.index ⟨(i 0).val / 2000, hlt⟩ (1 : Fin 2) * 128 + 128
    omega

/-- THE OUTPUT ARRAY after the run is `result`. -/
theorem final (c : Dev nD) : (dats m 0 c).arrAt 5 cfg0.N = result m c :=
  (dats m 0 c).arrAt_eq_of_cover 5 (result m c) (fun t _ => flushed_eq m c t) cover

/-- The kernel's run, read: the output array at `result`, the seven arguments unchanged. -/
theorem run : θ_run defs (onTc (τ := τ) (main (F := Ideal))) ⟨m, fun _ => 0, ρ⟩ fun r => ∀ c : Dev nD,
      r.2.mem ((c : Thread nD τ).loc main_v38) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩)
    (Cert.KernelIdeal.Value.run_blocks m ρ)

end Cert.KernelIdeal.Whole

end
-- ==== Proof.RefValue.lean ====
/-
  The reference's result, entry by entry.

  After the aggregation the reference applies the same two layers with whole-array operations: a product with the
  first weight matrix, the first bias laid along the rows, the rectifier against a zero splat, a product with the
  second weight matrix and the second bias. Read at an entry (r, j) — each product as the sum over the 128 contracted
  features — this is the two-layer perceptron of row r of the aggregated features at output feature j.
-/
import proofs.«129448_j6665789243397_1_alg».proof.Proof.RefRead
import proofs.«129448_j6665789243397_1_alg».proof.Proof.MlpSpec

noncomputable section

open scoped BigOperators

namespace Cert.ReferenceIdeal.RefValue

open Cert.ReferenceIdeal Cert.ReferenceIdeal.Read Idealize.ShloMosaic Idealize.ShloMosaic.ValueIdx

/-- The reference's result is the perceptron of its aggregated features. -/
theorem result_is_mlp (x0 : (⟨S100000x128, .f32⟩ : BufTy).Contents (Elt Ideal)) (x2 : (⟨S2x1600000, .i32⟩ : BufTy).Contents (Elt Ideal))
    (x3 : (⟨S128x128, .f32⟩ : BufTy).Contents (Elt Ideal)) (x4 : (⟨S128, .f32⟩ : BufTy).Contents (Elt Ideal))
    (x5 : (⟨S128x128, .f32⟩ : BufTy).Contents (Elt Ideal)) (x6 : (⟨S128, .f32⟩ : BufTy).Contents (Elt Ideal)) :
    val_main_v46 (F := Ideal) x0 x2 x3 x4 x5 x6
      = Cert.Mlp.mlp (n := 100000) (val_main_v37 (F := Ideal) x0 x2) x3 x4 x5 x6 := by
  funext i
  obtain ⟨r, j, rfl⟩ : ∃ (r : Fin 100000) (j : Fin 128), i = ix2 r j := ⟨i 0, i 1, eq_ix2 i⟩
  -- the operand indices of the two products and of the two bias broadcasts, at (r, j) and at (r, k)
  have l43 : ∀ k : Fin 128, lidx_main_v43 (ix2 r j) k = ix2 r k := fun k =>
    funext fun a => Fin.ext (by match a with | ⟨0, _⟩ => rfl | ⟨1, _⟩ => rfl)
  have r43 : ∀ k : Fin 128, ridx_main_v43 (ix2 r j) k = ix2 k j := fun k =>
    funext fun a => Fin.ext (by match a with | ⟨0, _⟩ => rfl | ⟨1, _⟩ => rfl)
  have b45 : idx_main_v44 (idx_main_v45 (ix2 r j)) = ix1 j :=
    funext fun a => Fin.ext (by match a with | ⟨0, _⟩ => rfl)
  have l38 : ∀ k l : Fin 128, lidx_main_v38 (ix2 r k) l = ix2 r l := fun k l =>
    funext fun a => Fin.ext (by match a with | ⟨0, _⟩ => rfl | ⟨1, _⟩ => rfl)
  have r38 : ∀ k l : Fin 128, ridx_main_v38 (ix2 r k) l = ix2 l k := fun k l =>
    funext fun a => Fin.ext (by match a with | ⟨0, _⟩ => rfl | ⟨1, _⟩ => rfl)
  have b40 : ∀ k : Fin 128, idx_main_v39 (idx_main_v40 (ix2 r k)) = ix1 k := fun k =>
    funext fun a => Fin.ext (by match a with | ⟨0, _⟩ => rfl)
  rw [Cert.Mlp.mlp_ix2, val_main_v46_apply, val_main_v43_apply, val_main_v45_apply, val_main_v44_apply, b45]
  unfold Cert.Mlp.row Cert.Mlp.affine
  refine congrArg (· + x6 (ix1 j)) (Finset.sum_congr rfl fun k _ => ?_)
  rw [l43, r43]
  refine congrArg (· * x5 (ix2 k j)) ?_
  rw [val_main_v42_apply, val_main_v41_apply, val_main_v38_apply, val_main_v40_apply, val_main_v39_apply, b40,
    val_main_call1_v0_apply, val_main_call1_cst_apply]
  refine congrArg₂ max (congrArg (· + x4 (ix1 k)) (Finset.sum_congr rfl fun l _ => ?_)) rfl
  rw [l38, r38]

end Cert.ReferenceIdeal.RefValue

end
-- ==== Proof.HostPrefix.lean ====
/-
  The aggregated features are one function of the node features and the edge list in both programs.

  Before its pallas_call the kernel's program computes, on the host, the degree-normalised aggregation of the node
  features over the edges: the in-degree by a scatter-add of ones, its inverse square root (zero where the degree
  is zero), the source rows gathered and scaled, scatter-added to the destinations and scaled again. The reference
  computes the same array by the same operations in the same order with the same literals. So the array the
  region finds under its first window IS the reference's aggregated features of the same two arguments; the
  operations themselves (the scatters, the gathers, the rsqrt) are never opened — both sides are the same term.
  Stated for every float family: nothing here depends on what a float is.
-/
import proofs.«129448_j6665789243397_1_alg».proof.Proof.Gen.KernelIdeal.Frame
import proofs.«129448_j6665789243397_1_alg».proof.Proof.RefRead
import Idealize.ShloMosaic.Lib.StableHlo.Run

set_option maxRecDepth 8192

noncomputable section

namespace Cert.HostPrefix

open Idealize.ShloMosaic Idealize.ShloMosaic.TcCoe Idealize.SL.Sem Idealize.ShloMosaic.StableHlo

variable {F : FTy → Type} [FloatOps F]

/-- What the region finds in the buffer of the aggregated features is the reference's aggregation of the node
    features and the edge list as launched. -/
theorem agg_eq (m : (ℓ : Loc Cert.KernelIdeal.nD Cert.KernelIdeal.τ Cert.KernelIdeal.sig) → Buf (Elt F) ℓ)
    (c : Dev Cert.KernelIdeal.nD) :
    Cert.KernelIdeal.Gen.V m c Cert.KernelIdeal.main_v37
      = Cert.ReferenceIdeal.Read.val_main_v37 (F := F)
          (m ((c : Thread Cert.KernelIdeal.nD Cert.KernelIdeal.τ).loc Cert.KernelIdeal.main_arg0))
          (m ((c : Thread Cert.KernelIdeal.nD Cert.KernelIdeal.τ).loc Cert.KernelIdeal.main_arg2)) := by
  dsimp only [Cert.KernelIdeal.Gen.V]
  simp only [Cert.KernelIdeal.Gen.hostOps0, Cert.KernelIdeal.Gen.hostOps0_1, Cert.KernelIdeal.Gen.hostOps0_2,
    List.flatten_cons, List.flatten_nil, List.append_nil, List.cons_append, List.nil_append]
  after_results_simp
  rfl

end Cert.HostPrefix

end
-- ==== Proof.Claims.lean ====
/-
  The five claims.

  Both programs aggregate the node features over the edges by the same host operations, then apply the same
  two-layer perceptron: the reference by whole-array operations, the kernel in 50 blocks of 2000 rows through a
  Pallas kernel that rounds its matrix operands to bf16. Over the extended reals the roundings are the identity,
  a matrix product into a zero accumulator is the plain sum, and a row of the output depends only on the same row
  of the aggregated features; so both results are `Cert.Mlp.mlp` of the aggregated features, the weights and the
  biases. No law beyond the associativity hidden in "0 + Σ" is used, so the finiteness of the inputs is never
  opened. The second result of both programs is the edge features, returned untouched.
-/
import proofs.«129448_j6665789243397_1_alg».proof.Defs
import proofs.«129448_j6665789243397_1_alg».proof.Proof.Gen.Kernel.Frame
import proofs.«129448_j6665789243397_1_alg».proof.Proof.Gen.KernelIdeal.Frame
import proofs.«129448_j6665789243397_1_alg».proof.Proof.Gen.Pre_finite_inputs
import proofs.«129448_j6665789243397_1_alg».proof.Proof.KernelArray
import proofs.«129448_j6665789243397_1_alg».proof.Proof.RefValue
import proofs.«129448_j6665789243397_1_alg».proof.Proof.HostPrefix

noncomputable section

namespace Cert.Proof.Claims

open Idealize.ShloMosaic Idealize.ShloMosaic.TcCoe Idealize.SL.Sem

/-- The kernel's output array as a function of the launch memory: the perceptron of the aggregation of the node
    features over the edge list, with the weights and biases as launched (no host operation writes them). -/
theorem result_eq (m : (ℓ : Loc Cert.KernelIdeal.nD Cert.KernelIdeal.τ Cert.KernelIdeal.sig) → Buf (Elt Ideal) ℓ) (c : Dev Cert.KernelIdeal.nD) :
    Cert.KernelIdeal.Whole.result m c
      = Cert.Mlp.mlp (n := 100000)
          (Cert.ReferenceIdeal.Read.val_main_v37 (F := Ideal) (m ((c : Thread Cert.KernelIdeal.nD Cert.KernelIdeal.τ).loc Cert.KernelIdeal.main_arg0)) (m ((c : Thread Cert.KernelIdeal.nD Cert.KernelIdeal.τ).loc Cert.KernelIdeal.main_arg2)))
          (m ((c : Thread Cert.KernelIdeal.nD Cert.KernelIdeal.τ).loc Cert.KernelIdeal.main_arg3)) (m ((c : Thread Cert.KernelIdeal.nD Cert.KernelIdeal.τ).loc Cert.KernelIdeal.main_arg4))
          (m ((c : Thread Cert.KernelIdeal.nD Cert.KernelIdeal.τ).loc Cert.KernelIdeal.main_arg5)) (m ((c : Thread Cert.KernelIdeal.nD Cert.KernelIdeal.τ).loc Cert.KernelIdeal.main_arg6)) :=
  Cert.Mlp.mlp_congr (Cert.HostPrefix.agg_eq m c) (Cert.KernelIdeal.Gen.V_main_arg3 m c) (Cert.KernelIdeal.Gen.V_main_arg4 m c)
    (Cert.KernelIdeal.Gen.V_main_arg5 m c) (Cert.KernelIdeal.Gen.V_main_arg6 m c)

/-- The word-level kernel program runs and keeps its arguments: the generated frame. -/
theorem frame_k : Cert.frame_Kernel := fun m ρ _ => Cert.Kernel.Gen.frame m ρ

/-- The idealized kernel program runs and keeps its arguments: the generated frame. -/
theorem frame_ki : Cert.frame_KernelIdeal := fun m ρ _ => Cert.KernelIdeal.Gen.frame m ρ

/-- The reference runs and keeps its arguments: its run, with the result dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The ideal pass rewrote nothing: there is nothing to preserve. -/
theorem preserves : Cert.preserves_Kernel_KernelIdeal := trivial

/-- From memories that agree on the seven arguments both programs end with the perceptron of the aggregated
    features as first result and the edge features as second. -/
theorem algebraic : Cert.algebraic_KernelIdeal_ReferenceIdeal := by
  intro m ρ m' ρ' _ hagree
  refine ⟨fun c => Cert.KernelIdeal.Whole.result m c, fun c => m ((c : Thread Cert.KernelIdeal.nD Cert.KernelIdeal.τ).loc Cert.KernelIdeal.main_arg1), ?_, ?_⟩
  · exact (θ_run Cert.KernelIdeal.defs _ _).mono (fun r h c => ⟨(h c).1, (h c).2.2.1, (h c).2⟩) (Cert.KernelIdeal.Whole.run m ρ)
  · refine (θ_run Cert.ReferenceIdeal.defs _ _).mono (fun r h c => ⟨?_, (h c).2.1.trans (hagree c).2.1, (h c).2.2⟩)
      (Cert.ReferenceIdeal.Value.run (F := Ideal) m' ρ')
    obtain ⟨a0, a1, a2, a3, a4, a5, a6⟩ := hagree c
    show _ = Cert.KernelIdeal.Whole.result m c
    rw [(h c).1, Cert.ReferenceIdeal.Read.val_main_v46_eq, Cert.ReferenceIdeal.RefValue.result_is_mlp, result_eq m c, a0, a2, a3, a4, a5, a6]

end Cert.Proof.Claims

end
-- ==== Proof.lean ====
/-
  `Cert.Claim`: a graph layer — degree-normalised aggregation of node features over 1.6 million edges, then a
  two-layer perceptron on the 100000 aggregated rows — whose perceptron runs as a Pallas kernel over 50 row
  blocks, against the same layer written with whole-array operations.

  The three frames, `preserves` (nothing was rewritten) and the value claim are in Proof/Claims.lean; the value
  claim rests on Proof/MlpSpec.lean (the perceptron as one function), Proof/KernelBlock.lean (one stored block,
  entry by entry), Proof/KernelArray.lean (the blocks cover the array), Proof/RefValue.lean (the reference, entry
  by entry) and Proof/HostPrefix.lean (the aggregation is the same function in both programs).
-/
import proofs.«129448_j6665789243397_1_alg».proof.Defs
import proofs.«129448_j6665789243397_1_alg».proof.Proof.Gen.Kernel
import proofs.«129448_j6665789243397_1_alg».proof.Proof.Gen.KernelIdeal
import proofs.«129448_j6665789243397_1_alg».proof.Proof.Gen.ReferenceIdeal
import proofs.«129448_j6665789243397_1_alg».proof.Proof.Gen.Pre_finite_inputs
import proofs.«129448_j6665789243397_1_alg».proof.Proof.Claims

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Cert.Proof.Claims.frame_k, Cert.Proof.Claims.frame_ki, Cert.Proof.Claims.frame_ri, Cert.Proof.Claims.preserves,
    Cert.Proof.Claims.algebraic⟩

end Cert.Proof

end
